-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S22x3 : Shape := ⟨2, ![22, 3]⟩
abbrev S8388608 : Shape := ⟨1, ![8388608]⟩
abbrev S8388608x2 : Shape := ⟨2, ![8388608, 2]⟩
abbrev S45x128 : Shape := ⟨2, ![45, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S22x3 : S_.BroadcastsInDim S22x3 (![] : Fin 0 → Fin S22x3.rank)
  reducesTo_S22x3_S_d0_1 : S22x3.ReducesTo [0, 1] S_
  h_S_ : 0 < S_.numel
  bcast_S_S8388608 : S_.BroadcastsInDim S8388608 (![] : Fin 0 → Fin S8388608.rank)
  reducesTo_S8388608_S_d0 : S8388608.ReducesTo [0] S_
  bcast_S_S8388608x2 : S_.BroadcastsInDim S8388608x2 (![] : Fin 0 → Fin S8388608x2.rank)
  reducesTo_S8388608x2_S_d0_1 : S8388608x2.ReducesTo [0, 1] S_
  bcast_S_S45x128 : S_.BroadcastsInDim S45x128 (![] : Fin 0 → Fin S45x128.rank)
  reducesTo_S45x128_S_d0_1 : S45x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S128 .f32) (main_arg8 : FVec F S128x2 .f32) (main_arg9 : FVec F S2 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg8
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S45x128 .f32) (main_arg5 : FVec F S128 .f32) (main_arg6 : FVec F S128x128 .f32) (main_arg7 : FVec F S128 .f32) (main_arg8 : FVec F S128x2 .f32) (main_arg9 : FVec F S2 .f32) (main_v13 : IVec S_ 1) (main_v16 : IVec S8388608x2 1) : IVec S_ 1 :=
  let main_c_5 : IVec S_ 1 := constantI S_ 1 1#1
  let main_v17 : IVec S_ 1 := (fun x v => Host.reduce IntOp.andi x v reducesTo_S8388608x2_S_d0_1 h_S_) main_v16 main_c_5
  let main_v18 : IVec S_ 1 := andi main_v13 main_v17
  let main_v19 : FVec F S45x128 .f32 := Host.absf main_arg4
  let main_cst_6 : FVec F S_ .f32 := constant S_ .f32 0x7F800000#32
  let main_v20 : FVec F S45x128 .f32 := broadcastInDim S45x128 ![] bcast_S_S45x128 main_cst_6
  let main_v21 : IVec S45x128 1 := cmpf .olt main_v19 main_v20
  let main_c_7 : IVec S_ 1 := constantI S_ 1 1#1
  let main_v22 : IVec S_ 1 := (fun x v => Host.reduce IntOp.andi x v reducesTo_S45x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S22x3 .f32) (main_arg1 : FVec F S8388608 .f32) (main_arg2 : FVec F S8388608x2 .f32) (main_arg3 : FVec F S8388608x2 .f32) (main_arg4 : FVec F S45x128 .f32) (main_arg5 : FVec F S128 .f32) (main_arg6 : FVec F S128x128 .f32) (main_arg7 : FVec F S128 .f32) (main_arg8 : FVec F S128x2 .f32) (main_arg9 : FVec F S2 .f32) : IVec S_ 1 :=
  let main_v0 : FVec F S22x3 .f32 := Host.absf main_arg0
  let main_cst : FVec F S_ .f32 := constant S_ .f32 0x7F800000#32
  let main_v1 : FVec F S22x3 .f32 := broadcastInDim S22x3 ![] bcast_S_S22x3 main_cst
  let main_v2 : IVec S22x3 1 := cmpf .olt main_v0 main_v1
  let main_c : IVec S_ 1 := constantI S_ 1 1#1
  let main_v3 : IVec S_ 1 := (fun x v => Host.reduce IntOp.andi x v reducesTo_S22x3_S_d0_1 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S8388608x2 .f32 := Host.absf main_arg2
  let main_cst_2 : FVec F S_ .f32 := constant S_ .f32 0x7F800000#32
  let main_v10 : FVec F S8388608x2 .f32 := broadcastInDim S8388608x2 ![] bcast_S_S8388608x2 main_cst_2
  let main_v11 : IVec S8388608x2 1 := cmpf .olt main_v9 main_v10
  let main_c_3 : IVec S_ 1 := constantI S_ 1 1#1
  let main_v12 : IVec S_ 1 := (fun x v => Host.reduce IntOp.andi x v reducesTo_S8388608x2_S_d0_1 h_S_) main_v11 main_c_3
  let main_v13 : IVec S_ 1 := andi main_v8 main_v12
  let main_v14 : FVec F S8388608x2 .f32 := Host.absf main_arg3
  let main_cst_4 : FVec F S_ .f32 := constant S_ .f32 0x7F800000#32
  let main_v15 : FVec F S8388608x2 .f32 := broadcastInDim S8388608x2 ![] bcast_S_S8388608x2 main_cst_4
  let main_v16 : IVec S8388608x2 1 := cmpf .olt main_v14 main_v15
  fn_part1 (F := F) main_arg4 main_arg5 main_arg6 main_arg7 main_arg8 main_arg9 main_v13 main_v16
-- ==== Kernel.lean ====
abbrev S22x3 : Shape := ⟨2, ![22, 3]⟩
abbrev S8388608 : Shape := ⟨1, ![8388608]⟩
abbrev S8388608x2 : Shape := ⟨2, ![8388608, 2]⟩
abbrev S45x128 : Shape := ⟨2, ![45, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S45 : Shape := ⟨1, ![45]⟩
abbrev S_ : Shape := ⟨0, ![]⟩
abbrev S45x1 : Shape := ⟨2, ![45, 1]⟩
abbrev S45x3 : Shape := ⟨2, ![45, 3]⟩
abbrev S1x45 : Shape := ⟨2, ![1, 45]⟩
abbrev S1x128 : Shape := ⟨2, ![1, 128]⟩
abbrev S1x2 : Shape := ⟨2, ![1, 2]⟩
abbrev S8388608x1 : Shape := ⟨2, ![8388608, 1]⟩
abbrev S1x1 : Shape := ⟨2, ![1, 1]⟩
abbrev S4096x1 : Shape := ⟨2, ![4096, 1]⟩
abbrev S4096x2 : Shape := ⟨2, ![4096, 2]⟩
abbrev S4096 : Shape := ⟨1, ![4096]⟩
abbrev S1 : Shape := ⟨1, ![1]⟩

abbrev nBuf : Space → Nat
  | .hbm => 50
  | .vmem => 9
  | .smem => 0
  | _ => 0

abbrev bufTy : (tb : Table) → Fin (tcTables nBuf tb) → BufTy
  | .hbm, ⟨0, _⟩ => ⟨S22x3, .f32⟩
  | .hbm, ⟨1, _⟩ => ⟨S8388608, .f32⟩
  | .hbm, ⟨2, _⟩ => ⟨S8388608x2, .f32⟩
  | .hbm, ⟨3, _⟩ => ⟨S8388608x2, .f32⟩
  | .hbm, ⟨4, _⟩ => ⟨S45x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S45, .i32⟩
  | .hbm, ⟨11, _⟩ => ⟨S45, .i32⟩
  | .hbm, ⟨12, _⟩ => ⟨S_, .i32⟩
  | .hbm, ⟨13, _⟩ => ⟨S45, .i32⟩
  | .hbm, ⟨14, _⟩ => ⟨S45, .i1⟩
  | .hbm, ⟨15, _⟩ => ⟨S_, .i32⟩
  | .hbm, ⟨16, _⟩ => ⟨S45, .i32⟩
  | .hbm, ⟨17, _⟩ => ⟨S45, .i32⟩
  | .hbm, ⟨18, _⟩ => ⟨S45, .i32⟩
  | .hbm, ⟨19, _⟩ => ⟨S45x1, .i32⟩
  | .hbm, ⟨20, _⟩ => ⟨S45x3, .f32⟩
  | .hbm, ⟨21, _⟩ => ⟨S_, .i32⟩
  | .hbm, ⟨22, _⟩ => ⟨S45, .i32⟩
  | .hbm, ⟨23, _⟩ => ⟨S45, .i1⟩
  | .hbm, ⟨24, _⟩ => ⟨S_, .i32⟩
  | .hbm, ⟨25, _⟩ => ⟨S45, .i32⟩
  | .hbm, ⟨26, _⟩ => ⟨S45, .i32⟩
  | .hbm, ⟨27, _⟩ => ⟨S45, .i32⟩
  | .hbm, ⟨28, _⟩ => ⟨S45x1, .i32⟩
  | .hbm, ⟨29, _⟩ => ⟨S45x3, .f32⟩
  | .hbm, ⟨30, _⟩ => ⟨S45x3, .f32⟩
  | .hbm, ⟨31, _⟩ => ⟨S45x3, .f32⟩
  | .hbm, ⟨32, _⟩ => ⟨S_, .f32⟩
  | .hbm, ⟨33, _⟩ => ⟨S45, .f32⟩
  | .hbm, ⟨34, _⟩ => ⟨S45, .f32⟩
  | .hbm, ⟨35, _⟩ => ⟨S1x45, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x2, .f32⟩
  | .hbm, ⟨45, _⟩ => ⟨S1x2, .f32⟩
  | .hbm, ⟨46, _⟩ => ⟨S1x2, .f32⟩
  | .hbm, ⟨47, _⟩ => ⟨S8388608x1, .f32⟩
  | .hbm, ⟨48, _⟩ => ⟨S1x1, .f32⟩
  | .hbm, ⟨49, _⟩ => ⟨S_, .f32⟩
  | .local _ .vmem, ⟨0, _⟩ => ⟨S1x2, .f32⟩
  | .local _ .vmem, ⟨1, _⟩ => ⟨S4096x1, .f32⟩
  | .local _ .vmem, ⟨2, _⟩ => ⟨S4096x1, .f32⟩
  | .local _ .vmem, ⟨3, _⟩ => ⟨S4096x2, .f32⟩
  | .local _ .vmem, ⟨4, _⟩ => ⟨S4096x2, .f32⟩
  | .local _ .vmem, ⟨5, _⟩ => ⟨S4096x2, .f32⟩
  | .local _ .vmem, ⟨6, _⟩ => ⟨S4096x2, .f32⟩
  | .local _ .vmem, ⟨7, _⟩ => ⟨S1x1, .f32⟩
  | .local _ .vmem, ⟨8, _⟩ => ⟨S1x1, .f32⟩
  | _, _ => ⟨S22x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_c_2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2048], ![false]⟩

def k0_cond2 (i : grid0.Coords) : BitVec 1 :=
  let arg0 : BitVec 32 := BitVec.ofNat 32 (i 0).val
  let c2047_i32 : BitVec 32 := 2047#32
  let v26 : BitVec 1 := Scalar.cmpi .eq arg0 c2047_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S45 : S_.BroadcastsInDim S45 (![] : Fin 0 → Fin S45.rank)
  bcast_S45_S45x1_0 : S45.BroadcastsInDim S45x1 (![0] : Fin 1 → Fin S45x1.rank)
  reducesTo_S45x3_S45_d1 : S45x3.ReducesTo [1] S45
  h_S_ : 0 < S_.numel
  bcast_S45_S1x45_1 : S45.BroadcastsInDim S1x45 (![1] : Fin 1 → Fin S1x45.rank)
  bcast_S128_S1x128_1 : S128.BroadcastsInDim S1x128 (![1] : Fin 1 → Fin S1x128.rank)
  bcast_S2_S1x2_1 : S2.BroadcastsInDim S1x2 (![1] : Fin 1 → Fin S1x2.rank)
  shapeCasts_S8388608_S8388608x1 : S8388608.ShapeCasts S8388608x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S4096x2_S4096x2_0_0 : ∀ a, (![0, 0] : Fin 2 → Nat) a + S4096x2.size a ≤ S4096x2.size a
  h_S4096x2 : 0 < S4096x2.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S1x2_S4096x2 : S1x2.Broadcasts S4096x2
  reduces_S4096x2_S4096 : S4096x2.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  gather_S22x3_S45x1_S45x3_1_0_n_n_0_1_13_wf : GatherDims.WF S22x3 S45x1 S45x3 [1] [0] [] [0] [] 1 ![1, 3]
  dot_S1x45_S45x128_S1x128_1_0_0_1_n_n_wf : DotDims.WF S1x45 S45x128 S1x128 [1] [0] [0] [1] [] []
  dot_S1x128_S128x128_S1x128_1_0_0_1_n_n_wf : DotDims.WF S1x128 S128x128 S1x128 [1] [0] [0] [1] [] []
  dot_S1x128_S128x2_S1x2_1_0_0_1_n_n_wf : DotDims.WF S1x128 S128x2 S1x2 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2.size a ≤ S1x2.size a
  hwx0_0 : ∀ i : grid0.Coords, EltTy.bits .f32 = 32 ∨ (Rect.block (s := S1x2) S1x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S8388608x1.size a
  hwx0_1 : ∀ i : grid0.Coords, EltTy.bits .f32 = 32 ∨ (Rect.block (s := S8388608x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S8388608x2.size a
  hwx0_2 : ∀ i : grid0.Coords, EltTy.bits .f32 = 32 ∨ (Rect.block (s := S8388608x2) S4096x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x2.size a ≤ S8388608x2.size a
  hwx0_3 : ∀ i : grid0.Coords, EltTy.bits .f32 = 32 ∨ (Rect.block (s := S8388608x2) S4096x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S22x3_S45x1_S45x3_1_0_n_n_0_1_13 : GatherDims S22x3 S45x1 S45x3 where
  offsetDims := [1]
  collapsedSliceDims := [0]
  operandBatchingDims := []
  startIndicesBatchingDims := []
  startIndexMap := [0]
  indexVectorDim := 1
  sliceSizes := ![1, 3]
  wf := gather_S22x3_S45x1_S45x3_1_0_n_n_0_1_13_wf
def dot_S1x45_S45x128_S1x128_1_0_0_1_n_n : DotDims S1x45 S45x128 S1x128 where
  lhsContracting := [1]
  rhsContracting := [0]
  lhsNonContracting := [0]
  rhsNonContracting := [1]
  lhsBatch := []
  rhsBatch := []
  wf := dot_S1x45_S45x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

abbrev win0_0 : Pipeline.Window sig grid0 :=
  Pipeline.Window.ofSpec (Memref.whole main_v29) S1x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v30) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S22x3 : Shape := ⟨2, ![22, 3]⟩
abbrev S8388608 : Shape := ⟨1, ![8388608]⟩
abbrev S8388608x2 : Shape := ⟨2, ![8388608, 2]⟩
abbrev S45x128 : Shape := ⟨2, ![45, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S45 : Shape := ⟨1, ![45]⟩
abbrev S_ : Shape := ⟨0, ![]⟩
abbrev S45x1 : Shape := ⟨2, ![45, 1]⟩
abbrev S45x3 : Shape := ⟨2, ![45, 3]⟩
abbrev S1x45 : Shape := ⟨2, ![1, 45]⟩
abbrev S1x128 : Shape := ⟨2, ![1, 128]⟩
abbrev S1x2 : Shape := ⟨2, ![1, 2]⟩

abbrev nBuf : Space → Nat
  | .hbm => 60
  | .vmem => 0
  | .smem => 0
  | _ => 0

abbrev bufTy : (tb : Table) → Fin (tcTables nBuf tb) → BufTy
  | .hbm, ⟨0, _⟩ => ⟨S22x3, .f32⟩
  | .hbm, ⟨1, _⟩ => ⟨S8388608, .f32⟩
  | .hbm, ⟨2, _⟩ => ⟨S8388608x2, .f32⟩
  | .hbm, ⟨3, _⟩ => ⟨S8388608x2, .f32⟩
  | .hbm, ⟨4, _⟩ => ⟨S45x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S45, .i32⟩
  | .hbm, ⟨11, _⟩ => ⟨S45, .i32⟩
  | .hbm, ⟨12, _⟩ => ⟨S_, .i32⟩
  | .hbm, ⟨13, _⟩ => ⟨S45, .i32⟩
  | .hbm, ⟨14, _⟩ => ⟨S45, .i1⟩
  | .hbm, ⟨15, _⟩ => ⟨S_, .i32⟩
  | .hbm, ⟨16, _⟩ => ⟨S45, .i32⟩
  | .hbm, ⟨17, _⟩ => ⟨S45, .i32⟩
  | .hbm, ⟨18, _⟩ => ⟨S45, .i32⟩
  | .hbm, ⟨19, _⟩ => ⟨S45x1, .i32⟩
  | .hbm, ⟨20, _⟩ => ⟨S45x3, .f32⟩
  | .hbm, ⟨21, _⟩ => ⟨S_, .i32⟩
  | .hbm, ⟨22, _⟩ => ⟨S45, .i32⟩
  | .hbm, ⟨23, _⟩ => ⟨S45, .i1⟩
  | .hbm, ⟨24, _⟩ => ⟨S_, .i32⟩
  | .hbm, ⟨25, _⟩ => ⟨S45, .i32⟩
  | .hbm, ⟨26, _⟩ => ⟨S45, .i32⟩
  | .hbm, ⟨27, _⟩ => ⟨S45, .i32⟩
  | .hbm, ⟨28, _⟩ => ⟨S45x1, .i32⟩
  | .hbm, ⟨29, _⟩ => ⟨S45x3, .f32⟩
  | .hbm, ⟨30, _⟩ => ⟨S45x3, .f32⟩
  | .hbm, ⟨31, _⟩ => ⟨S45x3, .f32⟩
  | .hbm, ⟨32, _⟩ => ⟨S_, .f32⟩
  | .hbm, ⟨33, _⟩ => ⟨S45, .f32⟩
  | .hbm, ⟨34, _⟩ => ⟨S45, .f32⟩
  | .hbm, ⟨35, _⟩ => ⟨S1x45, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x2, .f32⟩
  | .hbm, ⟨45, _⟩ => ⟨S1x2, .f32⟩
  | .hbm, ⟨46, _⟩ => ⟨S1x2, .f32⟩
  | .hbm, ⟨47, _⟩ => ⟨S8388608x2, .f32⟩
  | .hbm, ⟨48, _⟩ => ⟨S8388608x2, .f32⟩
  | .hbm, ⟨49, _⟩ => ⟨S8388608x2, .f32⟩
  | .hbm, ⟨50, _⟩ => ⟨S8388608x2, .f32⟩
  | .hbm, ⟨51, _⟩ => ⟨S_, .f32⟩
  | .hbm, ⟨52, _⟩ => ⟨S8388608, .f32⟩
  | .hbm, ⟨53, _⟩ => ⟨S_, .f32⟩
  | .hbm, ⟨54, _⟩ => ⟨S8388608, .f32⟩
  | .hbm, ⟨55, _⟩ => ⟨S8388608, .f32⟩
  | .hbm, ⟨56, _⟩ => ⟨S8388608, .f32⟩
  | .hbm, ⟨57, _⟩ => ⟨S8388608, .f32⟩
  | .hbm, ⟨58, _⟩ => ⟨S_, .f32⟩
  | .hbm, ⟨59, _⟩ => ⟨S_, .f32⟩
  | _, _ => ⟨S22x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_c_2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  bcast_S_S45 : S_.BroadcastsInDim S45 (![] : Fin 0 → Fin S45.rank)
  bcast_S45_S45x1_0 : S45.BroadcastsInDim S45x1 (![0] : Fin 1 → Fin S45x1.rank)
  reducesTo_S45x3_S45_d1 : S45x3.ReducesTo [1] S45
  h_S_ : 0 < S_.numel
  bcast_S45_S1x45_1 : S45.BroadcastsInDim S1x45 (![1] : Fin 1 → Fin S1x45.rank)
  bcast_S128_S1x128_1 : S128.BroadcastsInDim S1x128 (![1] : Fin 1 → Fin S1x128.rank)
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  reducesTo_S8388608x2_S8388608_d1 : S8388608x2.ReducesTo [1] S8388608
  bcast_S_S8388608 : S_.BroadcastsInDim S8388608 (![] : Fin 0 → Fin S8388608.rank)
  reducesTo_S8388608_S_d0 : S8388608.ReducesTo [0] S_
  gather_S22x3_S45x1_S45x3_1_0_n_n_0_1_13_wf : GatherDims.WF S22x3 S45x1 S45x3 [1] [0] [] [0] [] 1 ![1, 3]
  dot_S1x45_S45x128_S1x128_1_0_0_1_n_n_wf : DotDims.WF S1x45 S45x128 S1x128 [1] [0] [0] [1] [] []
  dot_S1x128_S128x128_S1x128_1_0_0_1_n_n_wf : DotDims.WF S1x128 S128x128 S1x128 [1] [0] [0] [1] [] []
  dot_S1x128_S128x2_S1x2_1_0_0_1_n_n_wf : DotDims.WF S1x128 S128x2 S1x2 [1] [0] [0] [1] [] []

variable [Facts₀]

def gather_S22x3_S45x1_S45x3_1_0_n_n_0_1_13 : GatherDims S22x3 S45x1 S45x3 where
  offsetDims := [1]
  collapsedSliceDims := [0]
  operandBatchingDims := []
  startIndicesBatchingDims := []
  startIndexMap := [0]
  indexVectorDim := 1
  sliceSizes := ![1, 3]
  wf := gather_S22x3_S45x1_S45x3_1_0_n_n_0_1_13_wf
def dot_S1x45_S45x128_S1x128_1_0_0_1_n_n : DotDims S1x45 S45x128 S1x128 where
  lhsContracting := [1]
  rhsContracting := [0]
  lhsNonContracting := [0]
  rhsNonContracting := [1]
  lhsBatch := []
  rhsBatch := []
  wf := dot_S1x45_S45x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x2_S1x2_1_0_0_1_n_n : DotDims S1x128 S128x2 S1x2 where
  lhsContracting := [1]
  rhsContracting := [0]
  lhsNonContracting := [0]
  rhsNonContracting := [1]
  lhsBatch := []
  rhsBatch := []
  wf := dot_S1x128_S128x2_S1x2_1_0_0_1_n_n_wf

class Facts : Prop extends Facts₀ where

variable [Facts]
-- ==== Proof.Pieces.lean ====
/-
  What one grid point leaves in the accumulator and in the result block.

  The kernel keeps a one-entry accumulator across the 2048 grid points. At every point it loads the latent row
  s, its tile of heights, centres and widths, computes the tile's partial sum and adds it to the accumulator; at
  the first point it first zeroes the accumulator, and at the last point it copies the accumulator to the result
  block. So, whatever the case, the accumulator after a point is the point's update `tileUpdate` of its four
  input blocks and of what the accumulator held before (the zero block at the first point), and the result block
  after the last point is that same value.
-/
import proofs.«175812_j49194555408957_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tiles

open Cert.KernelIdeal Cert.KernelIdeal.Gen

variable {F : FTy → Type} [FloatOps F]

theorem hz : (![0, 0] : Fin 2 → Nat) = fun _ => 0 := funext fun a => by fin_cases a <;> rfl

/-- The block the first point stores into the accumulator before anything else: all zero. -/
abbrev zeroBlock : FVec F S1x1 .f32 := k0_pay1

/-- One point's update of the accumulator: from the latent row `s`, the tile's heights `hts`, centres `cen` and
    widths `wid`, and the accumulator's contents `acc`, the new contents `acc + Σᵣ hts r · exp(-½ |(s - cen r) / wid r|²)`
    (the operations as the kernel prints them). -/
abbrev tileUpdate (s : Vec F S1x2 .f32) (hts : Vec F S4096x1 .f32) (cen wid : Vec F S4096x2 .f32) (acc : Vec F S1x1 .f32) :
    FVec F S1x1 .f32 :=
  k0_pay2 s cen wid hts acc

/-- The first point: the accumulator is zeroed, read back, and updated. -/
theorem scratch_first (c : Dev nD) (i : grid0.Coords) (arg1 : Memref sig .tc .vmem S1x2 .f32) (harg1 : arg1.IsWhole) (arg2 : Memref sig .tc .vmem S4096x1 .f32) (harg2 : arg2.IsWhole) (arg3 : Memref sig .tc .vmem S4096x2 .f32) (harg3 : arg3.IsWhole) (arg4 : Memref sig .tc .vmem S4096x2 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1x2 .f32) (x1 : Vec F S4096x1 .f32) (x2 : Vec F S4096x2 .f32) (x3 : Vec F S4096x2 .f32) :
    sout0_A_0 c i arg1 harg1 arg2 harg2 arg3 harg3 arg4 harg4 arg5 harg5 arg6 harg6 hc0 hc1 x0 x1 x2 x3 = tileUpdate x0 x1 x2 x3 (zeroBlock (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread,
    View.ld_unit_zero (S := S1x2) hz, View.ld_unit_zero (S := S4096x2) hz, View.ld_unit_zero (S := S4096x1) hz, View.ld_unit_zero (S := S1x1) hz]

/-- A middle point: the accumulator, holding `xs0`, is updated. -/
theorem scratch_middle (c : Dev nD) (i : grid0.Coords) (arg1 : Memref sig .tc .vmem S1x2 .f32) (harg1 : arg1.IsWhole) (arg2 : Memref sig .tc .vmem S4096x1 .f32) (harg2 : arg2.IsWhole) (arg3 : Memref sig .tc .vmem S4096x2 .f32) (harg3 : arg3.IsWhole) (arg4 : Memref sig .tc .vmem S4096x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1x2 .f32) (x1 : Vec F S4096x1 .f32) (x2 : Vec F S4096x2 .f32) (x3 : Vec F S4096x2 .f32) (xs0 : Vec F S1x1 .f32) :
    sout0_B_0 c i arg1 harg1 arg2 harg2 arg3 harg3 arg4 harg4 arg5 harg5 arg6 harg6 hc0 hc1 x0 x1 x2 x3 xs0 = tileUpdate x0 x1 x2 x3 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S1x2) hz, View.ld_unit_zero (S := S4096x2) hz, View.ld_unit_zero (S := S4096x1) hz, View.ld_unit_zero (S := S1x1) hz]

/-- The last point: the accumulator is updated in the same way, -/
theorem scratch_last (c : Dev nD) (i : grid0.Coords) (arg1 : Memref sig .tc .vmem S1x2 .f32) (harg1 : arg1.IsWhole) (arg2 : Memref sig .tc .vmem S4096x1 .f32) (harg2 : arg2.IsWhole) (arg3 : Memref sig .tc .vmem S4096x2 .f32) (harg3 : arg3.IsWhole) (arg4 : Memref sig .tc .vmem S4096x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1x2 .f32) (x1 : Vec F S4096x1 .f32) (x2 : Vec F S4096x2 .f32) (x3 : Vec F S4096x2 .f32) (xs0 : Vec F S1x1 .f32) :
    sout0_C_0 c i arg1 harg1 arg2 harg2 arg3 harg3 arg4 harg4 arg5 harg5 arg6 harg6 hc0 hc1 x0 x1 x2 x3 xs0 = tileUpdate x0 x1 x2 x3 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread,
    View.ld_unit_zero (S := S1x2) hz, View.ld_unit_zero (S := S4096x2) hz, View.ld_unit_zero (S := S4096x1) hz, View.ld_unit_zero (S := S1x1) hz]

/-- and the result block receives the updated accumulator, read back. -/
theorem result_last (c : Dev nD) (i : grid0.Coords) (arg1 : Memref sig .tc .vmem S1x2 .f32) (harg1 : arg1.IsWhole) (arg2 : Memref sig .tc .vmem S4096x1 .f32) (harg2 : arg2.IsWhole) (arg3 : Memref sig .tc .vmem S4096x2 .f32) (harg3 : arg3.IsWhole) (arg4 : Memref sig .tc .vmem S4096x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1x2 .f32) (x1 : Vec F S4096x1 .f32) (x2 : Vec F S4096x2 .f32) (x3 : Vec F S4096x2 .f32) (xs0 : Vec F S1x1 .f32) :
    out0_C_4 c i arg1 harg1 arg2 harg2 arg3 harg3 arg4 harg4 arg5 harg5 arg6 harg6 hc0 hc1 x0 x1 x2 x3 xs0 = tileUpdate x0 x1 x2 x3 xs0 := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg4.read_unread, harg5.read_unread, harg6.read_unread,
    View.ld_unit_zero (S := S1x2) hz, View.ld_unit_zero (S := S4096x2) hz, View.ld_unit_zero (S := S4096x1) hz, View.ld_unit_zero (S := S1x1) hz]

end Cert.KernelIdeal.Tiles

end
-- ==== Proof.Accumulate.lean ====
/-
  The accumulator across the grid, and the kernel's run read back.

  Point by point the accumulator is updated with that point's tile: after point 0 it holds the update of the
  zero block, after point n + 1 the update of what it held after point n. The generated frame states what each
  point leaves by cases (first, middle, last point); by induction on the point that is this chain. The result
  block is written once, at the last point, with the chain's last value, and is written back to the [1, 1] result
  array, which the one host operation after the region reshapes to the scalar the program returns.
-/
import proofs.«175812_j49194555408957_1_alg».proof.Proof.Pieces
import Idealize.ShloMosaic.Lib.StableHlo.Run

noncomputable section

open Idealize.ShloMosaic Idealize.ShloMosaic.TcCoe Idealize.SL.Sem
open Idealize.ShloMosaic.Pipeline (Dat)

namespace Cert.KernelIdeal.Tiles

open Cert.KernelIdeal Cert.KernelIdeal.Gen

variable {F : FTy → Type} [FloatOps F]
variable (m : (ℓ : Loc nD τ sig) → Buf (Elt F) ℓ) (ρ : Dev nD → PrngReg)

/-- The four input blocks of grid point `t`, at their literal shapes: the latent row (the same at every point),
    and the point's tile of heights, centres and widths. -/
abbrev sBlk (c : Dev nD) (t : Fin cfg0.N) : Vec F S1x2 .f32 := iblk m c 0 t
abbrev hBlk (c : Dev nD) (t : Fin cfg0.N) : Vec F S4096x1 .f32 := iblk m c 1 t
abbrev cBlk (c : Dev nD) (t : Fin cfg0.N) : Vec F S4096x2 .f32 := iblk m c 2 t
abbrev wBlk (c : Dev nD) (t : Fin cfg0.N) : Vec F S4096x2 .f32 := iblk m c 3 t

/-- The accumulator after grid point `n`: the chain of updates from the zero block. -/
def accAfter (c : Dev nD) : (n : ℕ) → n < cfg0.N → Vec F S1x1 .f32
  | 0, h => tileUpdate (sBlk m c ⟨0, h⟩) (hBlk m c ⟨0, h⟩) (cBlk m c ⟨0, h⟩) (wBlk m c ⟨0, h⟩) (zeroBlock (F := F))
  | n + 1, h => tileUpdate (sBlk m c ⟨n + 1, h⟩) (hBlk m c ⟨n + 1, h⟩) (cBlk m c ⟨n + 1, h⟩) (wBlk m c ⟨n + 1, h⟩)
      (accAfter c n (Nat.lt_of_succ_lt h))

/-- What the generated frame says the accumulator holds after point `n` is the chain: by induction on the point. -/
theorem scratch_eq (c : Dev nD) : ∀ (n : ℕ) (h : n < cfg0.N), (outsAt0 m c n h).2 = accAfter m c n h
  | 0, h => by
    rw [outsAt0_A m c ⟨0, h⟩ rfl (by show ¬(0 % 2048 = 2047); decide)]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (iblk m c 0 ⟨0, h⟩) (iblk m c 1 ⟨0, h⟩) (iblk m c 2 ⟨0, h⟩) (iblk m c 3 ⟨0, h⟩)
  | n + 1, h => by
    have hN : cfg0.N = 2048 := N_0
    have h0 : ¬(⟨n + 1, h⟩ : Fin cfg0.N).val % 2048 = 0 := by dsimp only; omega
    by_cases h1 : (⟨n + 1, h⟩ : Fin cfg0.N).val % 2048 = 2047
    · rw [outsAt0_C m c ⟨n + 1, h⟩ h0 h1]
      dsimp only
      refine (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) _).trans ?_
      show tileUpdate _ _ _ _ (outsAt0 m c n _).2 = tileUpdate _ _ _ _ (accAfter m c n _)
      rw [scratch_eq c n]
    · rw [outsAt0_B m c ⟨n + 1, h⟩ h0 h1]
      dsimp only
      refine (scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) _).trans ?_
      show tileUpdate _ _ _ _ (outsAt0 m c n _).2 = tileUpdate _ _ _ _ (accAfter m c n _)
      rw [scratch_eq c n]

/-- At the last point the result block receives the chain's value there. -/
theorem result_block_eq (c : Dev nD) (t : Fin cfg0.N) (h1 : t.val % 2048 = 2047) :
    (outsAt0 m c t.val t.isLt).1 = accAfter m c t.val t.isLt := by
  obtain ⟨n, hn⟩ := t
  cases n with
  | zero => exact absurd h1 (by show ¬(0 % 2048 = 2047); decide)
  | succ n =>
    have hN : cfg0.N = 2048 := N_0
    have h0 : ¬(⟨n + 1, hn⟩ : Fin cfg0.N).val % 2048 = 0 := by dsimp only; omega
    rw [outsAt0_C m c ⟨n + 1, hn⟩ h0 h1]
    dsimp only
    refine (result_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) _ _ (iblk m c 0 ⟨n + 1, hn⟩) (iblk m c 1 ⟨n + 1, hn⟩) (iblk m c 2 ⟨n + 1, hn⟩) (iblk m c 3 ⟨n + 1, hn⟩) _).trans ?_
    show tileUpdate _ _ _ _ (outsAt0 m c n _).2 = tileUpdate _ _ _ _ (accAfter m c n _)
    rw [scratch_eq m c n]

/-- The last grid point. -/
abbrev tLast : Fin cfg0.N := ⟨2047, by rw [show cfg0.N = 2048 from N_0]; decide⟩

/-- The kernel's result, as contents of the [1, 1] result array: the accumulator after the last point. -/
abbrev result (c : Dev nD) : Buf (Elt F) ((c : Thread nD τ).loc main_v31) := accAfter m c tLast.val tLast.isLt

/-- The one write-back, at the last point, writes it: the array's one block, read through zero offsets, is the array. -/
theorem flushed_eq (c : Dev nD) (t : Fin cfg0.N) (hf : (cfg0.win 4).flush t = true) :
    (dats m 0 c).flushed 4 t = ((cfg0.win 4).blk t).view.read (Elt F) (result m c) := by
  have hN : cfg0.N = 2048 := N_0
  have h1 : t.val % 2048 = 2047 := (flush0_4 t).mp hf
  have h3 : t.val = 2047 := by have := t.isLt; omega
  obtain rfl : t = tLast := Fin.ext h3
  show (cfg0.win 4).cut (grid0.coords tLast) ((dats m 0 c).after 4 tLast) = _
  rw [after0_4, result_block_eq m c tLast h1]
  have hz' : (fun a => win0_4.index tLast a * main_v31.ty.shape.size a) = fun _ => 0 :=
    funext fun a => by fin_cases a <;> rfl
  exact (Memref.read_access_unit_zero (Elt F) main_v31 hz' (fun a => by rw [congrFun hz' a]; simp) (result m c)).symm

/-- So the result array ends holding the accumulator after the last point. -/
theorem final_result (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v31).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from rfl, show win0_4.xsize (grid0.coords tLast) 0 = 1 from rfl]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from rfl, show win0_4.xsize (grid0.coords tLast) 1 = 1 from rfl]; omega⟩

/-- The host operation after the region reshapes the [1, 1] result array to a scalar. -/
theorem tail_result (c : Dev nD) :
    Pipeline.afterTail₀ cfgs (dats m) 0 (V0 m) [hostOps1] c main_v32 = shapeCast S_ (result m c) shapeCasts_S1x1_S_ := by
  unfold Pipeline.afterTail₀
  show StableHlo.after hostOps1 _ (Proc.devRef .tc main_v32) = _
  after_results
  show shapeCast S_ (Pipeline.withArrays spec0 c (V0 m c) (fun w => (dats m 0 c).arrAt w cfg0.N) (Proc.devRef .tc (Pipeline.arrRef spec0 4))) shapeCasts_S1x1_S_ = _
  rw [(Pipeline.withArrays_arr spec0 launch0.win.arr_inj c _ _ 4).trans (final_result m c)]

/-- The run, read: every weakly fair execution terminates with the returned scalar at the reshaped accumulator
    and the argument arrays unchanged. -/
theorem run : θ_run defs (onTc (τ := τ) (main (F := F))) ⟨m, fun _ => 0, ρ⟩ fun r => ∀ c : Dev nD,
      r.2.mem ((c.tc : Thread nD τ).loc main_v32) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v32 (Pipeline.mem_restRefs_of main_v32 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Tiles

end
-- ==== Proof.RefRun.lean ====
/-
  The reference program's run, read back.

  The reference is a straight line of fifty host operations. The first thirty-seven compute, from the atom
  positions and the network's weights, the two collective variables s = (s₀, s₁): the forty-five pair distances
  (two gathers of rows of the positions by constant index tables, the difference, its squared norm along the
  three coordinates, the square root) pushed through two tanh layers and a linear one. The last thirteen compute
  the bias energy of s: for every Gaussian g the quotients z = (s - centre g) / width g in both components, the
  squared norm of z, and the sum over g of height g · exp(-½ · |z|²).
  Both stretches are named here as functions of the argument arrays (`latent`, `energy`), and every weakly fair
  execution of the reference ends with its result at `energy (latent …) …` and its arguments unchanged.
-/
import proofs.«175812_j49194555408957_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's fifty operations, in order. -/
abbrev ops : List (HloOp τ sig (Elt F)) :=
  [
    nullary main_c (fun i => lit0 (S45.rowMajor i)),
    nullary main_c_0 (fun i => lit1 (S45.rowMajor i)),
    nullary main_c_1 (constantI S_ 32 0#32),
    unary main_c_1 main_v0 (broadcastInDim S45 ![] bcast_S_S45 : (⟨S_, .i32⟩ : BufTy).Contents (Elt F) → (⟨S45, .i32⟩ : BufTy).Contents (Elt F)),
    binary main_c main_v0 main_v1 (cmpi .slt : (⟨S45, .i32⟩ : BufTy).Contents (Elt F) → (⟨S45, .i32⟩ : BufTy).Contents (Elt F) → (⟨S45, .i1⟩ : BufTy).Contents (Elt F)),
    nullary main_c_2 (constantI S_ 32 22#32),
    unary main_c_2 main_v2 (broadcastInDim S45 ![] bcast_S_S45 : (⟨S_, .i32⟩ : BufTy).Contents (Elt F) → (⟨S45, .i32⟩ : BufTy).Contents (Elt F)),
    binary main_c main_v2 main_v3 (addi : (⟨S45, .i32⟩ : BufTy).Contents (Elt F) → (⟨S45, .i32⟩ : BufTy).Contents (Elt F) → (⟨S45, .i32⟩ : BufTy).Contents (Elt F)),
    ternary main_v1 main_v3 main_c main_v4 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v4 main_v5 (broadcastInDim S45x1 ![0] bcast_S45_S45x1_0 : (⟨S45, .i32⟩ : BufTy).Contents (Elt F) → (⟨S45x1, .i32⟩ : BufTy).Contents (Elt F)),
    binary main_arg0 main_v5 main_v6 ((fun x i => Host.gather gather_S22x3_S45x1_S45x3_1_0_n_n_0_1_13 x i) : (⟨S22x3, .f32⟩ : BufTy).Contents (Elt F) → (⟨S45x1, .i32⟩ : BufTy).Contents (Elt F) → (⟨S45x3, .f32⟩ : BufTy).Contents (Elt F)),
    nullary main_c_3 (constantI S_ 32 0#32),
    unary main_c_3 main_v7 (broadcastInDim S45 ![] bcast_S_S45 : (⟨S_, .i32⟩ : BufTy).Contents (Elt F) → (⟨S45, .i32⟩ : BufTy).Contents (Elt F)),
    binary main_c_0 main_v7 main_v8 (cmpi .slt : (⟨S45, .i32⟩ : BufTy).Contents (Elt F) → (⟨S45, .i32⟩ : BufTy).Contents (Elt F) → (⟨S45, .i1⟩ : BufTy).Contents (Elt F)),
    nullary main_c_4 (constantI S_ 32 22#32),
    unary main_c_4 main_v9 (broadcastInDim S45 ![] bcast_S_S45 : (⟨S_, .i32⟩ : BufTy).Contents (Elt F) → (⟨S45, .i32⟩ : BufTy).Contents (Elt F)),
    binary main_c_0 main_v9 main_v10 (addi : (⟨S45, .i32⟩ : BufTy).Contents (Elt F) → (⟨S45, .i32⟩ : BufTy).Contents (Elt F) → (⟨S45, .i32⟩ : BufTy).Contents (Elt F)),
    ternary main_v8 main_v10 main_c_0 main_v11 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    unary main_v11 main_v12 (broadcastInDim S45x1 ![0] bcast_S45_S45x1_0 : (⟨S45, .i32⟩ : BufTy).Contents (Elt F) → (⟨S45x1, .i32⟩ : BufTy).Contents (Elt F)),
    binary main_arg0 main_v12 main_v13 ((fun x i => Host.gather gather_S22x3_S45x1_S45x3_1_0_n_n_0_1_13 x i) : (⟨S22x3, .f32⟩ : BufTy).Contents (Elt F) → (⟨S45x1, .i32⟩ : BufTy).Contents (Elt F) → (⟨S45x3, .f32⟩ : BufTy).Contents (Elt F)),
    binary main_v6 main_v13 main_v14 (subf : (⟨S45x3, .f32⟩ : BufTy).Contents (Elt F) → (⟨S45x3, .f32⟩ : BufTy).Contents (Elt F) → (⟨S45x3, .f32⟩ : BufTy).Contents (Elt F)),
    binary main_v14 main_v14 main_v15 (mulf : (⟨S45x3, .f32⟩ : BufTy).Contents (Elt F) → (⟨S45x3, .f32⟩ : BufTy).Contents (Elt F) → (⟨S45x3, .f32⟩ : BufTy).Contents (Elt F)),
    nullary main_cst (constant S_ .f32 0x00000000#32),
    binary main_v15 main_cst main_v16 ((fun x v => Host.reduceAdd x v reducesTo_S45x3_S45_d1 h_S_) : (⟨S45x3, .f32⟩ : BufTy).Contents (Elt F) → (⟨S_, .f32⟩ : BufTy).Contents (Elt F) → (⟨S45, .f32⟩ : BufTy).Contents (Elt F)),
    unary main_v16 main_v17 (Host.sqrt : (⟨S45, .f32⟩ : BufTy).Contents (Elt F) → (⟨S45, .f32⟩ : BufTy).Contents (Elt F)),
    unary main_v17 main_v18 (broadcastInDim S1x45 ![1] bcast_S45_S1x45_1 : (⟨S45, .f32⟩ : BufTy).Contents (Elt F) → (⟨S1x45, .f32⟩ : BufTy).Contents (Elt F)),
    binary main_v18 main_arg4 main_v19 ((fun l r => Host.dotGeneral dot_S1x45_S45x128_S1x128_1_0_0_1_n_n none l r) : (⟨S1x45, .f32⟩ : BufTy).Contents (Elt F) → (⟨S45x128, .f32⟩ : BufTy).Contents (Elt F) → (⟨S1x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    binary main_v19 main_v20 main_v21 (addf : (⟨S1x128, .f32⟩ : BufTy).Contents (Elt F) → (⟨S1x128, .f32⟩ : BufTy).Contents (Elt F) → (⟨S1x128, .f32⟩ : BufTy).Contents (Elt F)),
    unary main_v21 main_v22 (Host.tanh : (⟨S1x128, .f32⟩ : BufTy).Contents (Elt F) → (⟨S1x128, .f32⟩ : BufTy).Contents (Elt F)),
    binary main_v22 main_arg6 main_v23 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg7 main_v24 (broadcastInDim S1x128 ![1] bcast_S128_S1x128_1 : (⟨S128, .f32⟩ : BufTy).Contents (Elt F) → (⟨S1x128, .f32⟩ : BufTy).Contents (Elt F)),
    binary main_v23 main_v24 main_v25 (addf : (⟨S1x128, .f32⟩ : BufTy).Contents (Elt F) → (⟨S1x128, .f32⟩ : BufTy).Contents (Elt F) → (⟨S1x128, .f32⟩ : BufTy).Contents (Elt F)),
    unary main_v25 main_v26 (Host.tanh : (⟨S1x128, .f32⟩ : BufTy).Contents (Elt F) → (⟨S1x128, .f32⟩ : BufTy).Contents (Elt F)),
    binary main_v26 main_arg8 main_v27 ((fun l r => Host.dotGeneral dot_S1x128_S128x2_S1x2_1_0_0_1_n_n none l r) : (⟨S1x128, .f32⟩ : BufTy).Contents (Elt F) → (⟨S128x2, .f32⟩ : BufTy).Contents (Elt F) → (⟨S1x2, .f32⟩ : BufTy).Contents (Elt F)),
    unary main_arg9 main_v28 (broadcastInDim S1x2 ![1] bcast_S2_S1x2_1 : (⟨S2, .f32⟩ : BufTy).Contents (Elt F) → (⟨S1x2, .f32⟩ : BufTy).Contents (Elt F)),
    binary main_v27 main_v28 main_v29 (addf : (⟨S1x2, .f32⟩ : BufTy).Contents (Elt F) → (⟨S1x2, .f32⟩ : BufTy).Contents (Elt F) → (⟨S1x2, .f32⟩ : BufTy).Contents (Elt F)),
    unary main_v29 main_v30 (broadcastInDim S8388608x2 ![0, 1] bcast_S1x2_S8388608x2_0_1 : (⟨S1x2, .f32⟩ : BufTy).Contents (Elt F) → (⟨S8388608x2, .f32⟩ : BufTy).Contents (Elt F)),
    binary main_v30 main_arg2 main_v31 (subf : (⟨S8388608x2, .f32⟩ : BufTy).Contents (Elt F) → (⟨S8388608x2, .f32⟩ : BufTy).Contents (Elt F) → (⟨S8388608x2, .f32⟩ : BufTy).Contents (Elt F)),
    binary main_v31 main_arg3 main_v32 (Host.divf : (⟨S8388608x2, .f32⟩ : BufTy).Contents (Elt F) → (⟨S8388608x2, .f32⟩ : BufTy).Contents (Elt F) → (⟨S8388608x2, .f32⟩ : BufTy).Contents (Elt F)),
    binary main_v32 main_v32 main_v33 (mulf : (⟨S8388608x2, .f32⟩ : BufTy).Contents (Elt F) → (⟨S8388608x2, .f32⟩ : BufTy).Contents (Elt F) → (⟨S8388608x2, .f32⟩ : BufTy).Contents (Elt F)),
    nullary main_cst_5 (constant S_ .f32 0x00000000#32),
    binary main_v33 main_cst_5 main_v34 ((fun x v => Host.reduceAdd x v reducesTo_S8388608x2_S8388608_d1 h_S_) : (⟨S8388608x2, .f32⟩ : BufTy).Contents (Elt F) → (⟨S_, .f32⟩ : BufTy).Contents (Elt F) → (⟨S8388608, .f32⟩ : BufTy).Contents (Elt F)),
    nullary main_cst_6 (constant S_ .f32 0xBF000000#32),
    unary main_cst_6 main_v35 (broadcastInDim S8388608 ![] bcast_S_S8388608 : (⟨S_, .f32⟩ : BufTy).Contents (Elt F) → (⟨S8388608, .f32⟩ : BufTy).Contents (Elt F)),
    binary main_v35 main_v34 main_v36 (mulf : (⟨S8388608, .f32⟩ : BufTy).Contents (Elt F) → (⟨S8388608, .f32⟩ : BufTy).Contents (Elt F) → (⟨S8388608, .f32⟩ : BufTy).Contents (Elt F)),
    unary main_v36 main_v37 (Host.exp : (⟨S8388608, .f32⟩ : BufTy).Contents (Elt F) → (⟨S8388608, .f32⟩ : BufTy).Contents (Elt F)),
    binary main_arg1 main_v37 main_v38 (mulf : (⟨S8388608, .f32⟩ : BufTy).Contents (Elt F) → (⟨S8388608, .f32⟩ : BufTy).Contents (Elt F) → (⟨S8388608, .f32⟩ : BufTy).Contents (Elt F)),
    nullary main_cst_7 (constant S_ .f32 0x00000000#32),
    binary main_v38 main_cst_7 main_v39 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., binary_bufs_sub .., nullary_bufs_sub .., binary_bufs_sub ..⟩

/-- A constant table of atom indices as the gather takes it: jnp's wrap of negative indices (add 22 where the
    index is below zero; no entry is) and the unit axis the gather wants. -/
def wrapped (tab : Fin 45 → BitVec 32) : (⟨S45x1, .i32⟩ : BufTy).Contents (Elt F) :=
  broadcastInDim S45x1 ![0] bcast_S45_S45x1_0
    (select
      (cmpi .slt (fun i => tab (S45.rowMajor i) : (⟨S45, .i32⟩ : BufTy).Contents (Elt F))
        (broadcastInDim S45 ![] bcast_S_S45 (constantI S_ 32 0#32 : (⟨S_, .i32⟩ : BufTy).Contents (Elt F))
          : (⟨S45, .i32⟩ : BufTy).Contents (Elt F)) : (⟨S45, .i1⟩ : BufTy).Contents (Elt F))
      (addi (fun i => tab (S45.rowMajor i) : (⟨S45, .i32⟩ : BufTy).Contents (Elt F))
        (broadcastInDim S45 ![] bcast_S_S45 (constantI S_ 32 22#32 : (⟨S_, .i32⟩ : BufTy).Contents (Elt F))
          : (⟨S45, .i32⟩ : BufTy).Contents (Elt F)) : (⟨S45, .i32⟩ : BufTy).Contents (Elt F))
      (fun i => tab (S45.rowMajor i) : (⟨S45, .i32⟩ : BufTy).Contents (Elt F))
      : (⟨S45, .i32⟩ : BufTy).Contents (Elt F))

/-- The forty-five pair distances as a row [1, 45]: |pos[J k] - pos[I k]| for the k-th pair (I k, J k). -/
def distances (pos : FVec F S22x3 .f32) : FVec F S1x45 .f32 :=
  broadcastInDim S1x45 ![1] bcast_S45_S1x45_1
    (Host.sqrt
      (Host.reduceAdd
        (mulf
          (subf (Host.gather gather_S22x3_S45x1_S45x3_1_0_n_n_0_1_13 pos (wrapped (F := F) lit0))
            (Host.gather gather_S22x3_S45x1_S45x3_1_0_n_n_0_1_13 pos (wrapped (F := F) lit1)))
          (subf (Host.gather gather_S22x3_S45x1_S45x3_1_0_n_n_0_1_13 pos (wrapped (F := F) lit0))
            (Host.gather gather_S22x3_S45x1_S45x3_1_0_n_n_0_1_13 pos (wrapped (F := F) lit1))))
        (constant S_ .f32 0x00000000#32) reducesTo_S45x3_S45_d1 h_S_))

/-- The collective variables s = W₃ᵀ tanh(W₂ᵀ tanh(W₁ᵀ d + b₁) + b₂) + b₃ of the distances d, a row [1, 2]. -/
def latent (pos : FVec F S22x3 .f32) (W1 : FVec F S45x128 .f32) (b1 : FVec F S128 .f32) (W2 : FVec F S128x128 .f32)
    (b2 : FVec F S128 .f32) (W3 : FVec F S128x2 .f32) (b3 : FVec F S2 .f32) : FVec F S1x2 .f32 :=
  addf
    (Host.dotGeneral dot_S1x128_S128x2_S1x2_1_0_0_1_n_n none
      (Host.tanh
        (addf
          (Host.dotGeneral dot_S1x128_S128x128_S1x128_1_0_0_1_n_n none
            (Host.tanh
              (addf (Host.dotGeneral dot_S1x45_S45x128_S1x128_1_0_0_1_n_n none (distances pos) W1)
                (broadcastInDim S1x128 ![1] bcast_S128_S1x128_1 b1)))
            W2)
          (broadcastInDim S1x128 ![1] bcast_S128_S1x128_1 b2)))
      W3)
    (broadcastInDim S1x2 ![1] bcast_S2_S1x2_1 b3)

/-- The quotients z[g, j] = (s[j] - centre[g, j]) / width[g, j]. -/
def quotients (s : FVec F S1x2 .f32) (cen wid : FVec F S8388608x2 .f32) : FVec F S8388608x2 .f32 :=
  Host.divf (subf (broadcastInDim S8388608x2 ![0, 1] bcast_S1x2_S8388608x2_0_1 s) cen) wid

/-- The bias energy of s: the sum over the Gaussians g of height[g] · exp(-½ · Σⱼ z[g, j]²). -/
def energy (s : FVec F S1x2 .f32) (hts : FVec F S8388608 .f32) (cen wid : FVec F S8388608x2 .f32) : FVec F S_ .f32 :=
  Host.reduceAdd
    (mulf hts
      (Host.exp
        (mulf (broadcastInDim S8388608 ![] bcast_S_S8388608 (constant S_ .f32 0xBF000000#32))
          (Host.reduceAdd (mulf (quotients s cen wid) (quotients s cen wid)) (constant S_ .f32 0x00000000#32)
            reducesTo_S8388608x2_S8388608_d1 h_S_))))
    (constant S_ .f32 0x00000000#32) reducesTo_S8388608_S_d0 h_S_

set_option maxHeartbeats 8000000 in
/-- On every device, for any float values, from any memory with zero counters: every weakly fair execution of
    @main terminates with the result at the energy of the latent variables of the arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = energy
            (latent (m ((c.tc : Thread nD τ).loc main_arg0)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
              (m ((c.tc : Thread nD τ).loc main_arg9)))
            (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v39).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp)⟩)
    (run_seq scopedRefs_eq scopedSems_eq defs main (fun _ => ops) main_eq (fun _ => ops_sub) m ρ)

end Cert.ReferenceIdeal.HostRun

end
-- ==== Proof.LibSums.lean ====
/-
  Sums read at an index, at the ideal values, for any extents.

  A vector [a] cast to a column [a, 1] reads, at (p, 0), the vector at p. A sum down the one column of an [a, 1]
  array from the zero pattern is the plain sum of the column. The host's sum along the lanes of an [a, b] array
  is the initial value plus the row's sum, and its sum of a whole vector [a] into a scalar the initial value plus
  the sum of the entries. A sum over a `m · n` entries, read as `m` tiles of `n` consecutive entries, is the sum
  over the tiles of each tile's sum.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibSums

open Idealize.ShloMosaic Idealize.ShloMosaic.ValueIdx

variable {α : Type}

/-- A vector [a] cast to a column [a, 1]: at (p, 0), the vector at p. -/
theorem column_cast_apply {a : ℕ} (v : (⟨1, ![a]⟩ : Shape).Idx → α)
    (h₁ : (⟨1, ![a]⟩ : Shape).ShapeCasts ⟨2, ![a, 1]⟩) (p : Fin a) :
    shapeCast ⟨2, ![a, 1]⟩ v h₁ (ix2 p (0 : Fin 1)) = v (ix1 p) := by
  refine shapeCast_apply v h₁ _ _ ?_
  rw [Shape.rowMajor_val_one, Shape.rowMajor_val_two]
  show p.val = p.val * 1 + 0
  omega

/-- At the ideal values the sum down the one column of an [a, 1] array from the zero pattern is the sum of the
    column's entries. -/
theorem column_sum_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec (FTy.bits .f32)) = FKind.add.neutral .f32 hφ) :
    multiReduction (F := Ideal) .add [0] ⟨1, ![1]⟩ src 0x00000000#32 h hφ hacc (ix1 (0 : Fin 1))
      = ∑ k : Fin a, src (ix2 k (0 : Fin 1)) :=
  (Ideal.multiReduction_add_single src _ h hφ hacc (ix1 0)).trans
    (Finset.sum_congr rfl fun k _ => congrArg src
      (funext fun ax => Fin.ext (by match ax with | ⟨0, _⟩ => rfl | ⟨1, _⟩ => rfl)))

/-- At the ideal values the host's sum along the lanes of an [a, b] array, read at row p, is the initial value
    plus the sum of the row. -/
theorem host_lane_sum_apply {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩)
    (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x
      (funext fun ax => Fin.ext (by match ax with | ⟨0, _⟩ => rfl | ⟨1, _⟩ => rfl))))

/-- The indices of a vector [a] are its a positions. -/
def idxEquiv1 {a : ℕ} : (⟨1, ![a]⟩ : Shape).Idx ≃ Fin a where
  toFun i := i 0
  invFun := ix1
  left_inv i := (eq_ix1 i).symm
  right_inv _ := rfl

/-- At the ideal values the host's sum of a whole vector [a] into a scalar is the initial value plus the sum of
    the entries. -/
theorem host_vector_sum_apply {a : ℕ} (x : (⟨1, ![a]⟩ : Shape).Idx → EReal) (init : EReal)
    (h' : (⟨1, ![a]⟩ : Shape).ReducesTo [0] ⟨0, ![]⟩) (j : (⟨0, ![]⟩ : Shape).Idx) :
    Ideal.hostReduceAdd h' x init j = init + ∑ k : Fin a, x (ix1 k) :=
  (Ideal.hostReduceAdd_total h' (fun b => b.elim0) x init j).trans
    (congrArg (init + ·) (Fintype.sum_equiv idxEquiv1 _ _ fun i => congrArg x (eq_ix1 i)))

/-- Entry `r` of tile `t`, of `m` tiles of `n` consecutive entries. -/
def tileRow {m n : ℕ} (t : Fin m) (r : Fin n) : Fin (m * n) :=
  ⟨t.val * n + r.val, by
    have ht := t.isLt; have hr := r.isLt
    calc t.val * n + r.val < t.val * n + n := by omega
      _ = (t.val + 1) * n := by ring
      _ ≤ m * n := Nat.mul_le_mul_right n ht⟩

/-- A sum over `m · n` entries is the sum over the `m` tiles of each tile's sum. -/
theorem sum_tiles {M : Type} [AddCommMonoid M] {m n : ℕ} (f : Fin (m * n) → M) :
    ∑ g, f g = ∑ t : Fin m, ∑ r : Fin n, f (tileRow t r) := by
  rw [← Fintype.sum_prod_type (f := fun p : Fin m × Fin n => f (tileRow p.1 p.2))]
  refine (Fintype.sum_equiv finProdFinEquiv _ _ fun p => congrArg f (Fin.ext ?_)).symm
  show p.1.val * n + p.2.val = p.2.val + n * p.1.val
  rw [Nat.mul_comm, Nat.add_comm]

end Cert.LibSums

end
-- ==== Proof.Blocks.lean ====
/-
  The input blocks of a grid point, read at an index.

  Grid point t stages rows 4096·t … 4096·t + 4095 of the heights (as a column [G, 1]), the centres and the widths,
  and the whole latent row. So row r of the point's tile is Gaussian 4096·t + r of the argument arrays, and the
  latent block is the latent row the host operations before the region computed: the same function `latent` of
  the positions and the weights that the reference program computes.
-/
import proofs.«175812_j49194555408957_1_alg».proof.Proof.Accumulate
import proofs.«175812_j49194555408957_1_alg».proof.Proof.RefRun
import proofs.«175812_j49194555408957_1_alg».proof.Proof.LibSums

noncomputable section

open Idealize.ShloMosaic Idealize.ShloMosaic.TcCoe Idealize.SL.Sem Idealize.ShloMosaic.ValueIdx

namespace Cert.KernelIdeal.Tiles

open Cert.KernelIdeal Cert.KernelIdeal.Gen

variable {F : FTy → Type} [FloatOps F]
variable (m : (ℓ : Loc nD τ sig) → Buf (Elt F) ℓ)

/-- The windows' block indices at grid point t: the latent row's block never moves; the heights', centres' and
    widths' block is the t-th along the Gaussian axis. Decided once over the grid. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0)

/-- Row r of grid point t's tile is Gaussian 4096·t + r. -/
def gaussian (t : Fin cfg0.N) (r : Fin 4096) : Fin 8388608 :=
  ⟨t.val * 4096 + r.val, by have := t.isLt; have hN : cfg0.N = 2048 := N_0; have := r.isLt; omega⟩

/-- The centres' tile at (r, j) is the centres' array at (4096·t + r, j). -/
theorem cBlk_apply (c : Dev nD) (t : Fin cfg0.N) (r : Fin 4096) (j : Fin 2) :
    cBlk m c t (ix2 r j) = m ((c.tc : Thread nD τ).loc main_arg2) (ix2 (gaussian t r) j) := by
  obtain ⟨-, -, -, -, h0, h1, -, -⟩ := idx_facts t
  show iblk m c 2 t (ix2 r j) = _
  unfold iblk
  rw [View.read_apply]
  show V m c main_arg2 _ = _
  rw [V_main_arg2]
  congr 1
  funext a
  apply Fin.ext
  match a with
  | ⟨0, _⟩ => show win0_2.index t 0 * 4096 + 1 * r.val = t.val * 4096 + r.val; rw [h0]; omega
  | ⟨1, _⟩ => show win0_2.index t 1 * 2 + 1 * j.val = j.val; rw [h1]; omega

/-- The widths' tile at (r, j) is the widths' array at (4096·t + r, j). -/
theorem wBlk_apply (c : Dev nD) (t : Fin cfg0.N) (r : Fin 4096) (j : Fin 2) :
    wBlk m c t (ix2 r j) = m ((c.tc : Thread nD τ).loc main_arg3) (ix2 (gaussian t r) j) := by
  obtain ⟨-, -, -, -, -, -, h0, h1⟩ := idx_facts t
  show iblk m c 3 t (ix2 r j) = _
  unfold iblk
  rw [View.read_apply]
  show V m c main_arg3 _ = _
  rw [V_main_arg3]
  congr 1
  funext a
  apply Fin.ext
  match a with
  | ⟨0, _⟩ => show win0_3.index t 0 * 4096 + 1 * r.val = t.val * 4096 + r.val; rw [h0]; omega
  | ⟨1, _⟩ => show win0_3.index t 1 * 2 + 1 * j.val = j.val; rw [h1]; omega

set_option maxHeartbeats 4000000 in
/-- The column of heights the region stages is the heights' vector reshaped [G] → [G, 1]. -/
theorem heights_column (c : Dev nD) :
    (V m c main_v30 : S8388608x1.Idx → Elt F .f32)
      = shapeCast S8388608x1 (m ((c.tc : Thread nD τ).loc main_arg1)) shapeCasts_S8388608_S8388608x1 := by
  show StableHlo.after hostOps0 (fun b => m (c, b)) (Proc.devRef .tc main_v30) = _
  after_results_simp
  rfl

/-- The heights' tile at (r, 0) is the heights' vector at 4096·t + r. -/
theorem hBlk_apply (c : Dev nD) (t : Fin cfg0.N) (r : Fin 4096) :
    hBlk m c t (ix2 r (0 : Fin 1)) = m ((c.tc : Thread nD τ).loc main_arg1) (ix1 (gaussian t r)) := by
  obtain ⟨-, -, h0, h1, -, -, -, -⟩ := idx_facts t
  show iblk m c 1 t (ix2 r (0 : Fin 1)) = _
  unfold iblk
  rw [View.read_apply]
  show V m c main_v30 _ = _
  rw [heights_column]
  refine (congrArg _ ?_).trans (Cert.LibSums.column_cast_apply _ _ (gaussian t r))
  funext a
  apply Fin.ext
  match a with
  | ⟨0, _⟩ => show win0_1.index t 0 * 4096 + 1 * r.val = t.val * 4096 + r.val; rw [h0]; omega
  | ⟨1, _⟩ => show win0_1.index t 1 * 1 + 1 * 0 = 0; rw [h1]

/-- The latent block at (0, j) is the staged latent row at (0, j), at every point. -/
theorem sBlk_apply (c : Dev nD) (t : Fin cfg0.N) (j : Fin 2) :
    sBlk m c t (ix2 (0 : Fin 1) j) = V m c main_v29 (ix2 (0 : Fin 1) j) := by
  obtain ⟨h0, h1, -, -, -, -, -, -⟩ := idx_facts t
  show iblk m c 0 t (ix2 (0 : Fin 1) j) = _
  unfold iblk
  rw [View.read_apply]
  show V m c main_v29 _ = _
  congr 1
  funext a
  apply Fin.ext
  match a with
  | ⟨0, _⟩ => show win0_0.index t 0 * 1 + 1 * 0 = 0; rw [h0]
  | ⟨1, _⟩ => show win0_0.index t 1 * 2 + 1 * j.val = j.val; rw [h1]; omega

set_option maxHeartbeats 8000000 in
/-- The latent row the region finds is the reference's function `latent` of the positions and the weights: the
    thirty-seven host operations before the region are the reference's first thirty-seven. -/
theorem latent_row (c : Dev nD) :
    (V m c main_v29 : S1x2.Idx → Elt F .f32)
      = Cert.ReferenceIdeal.HostRun.latent (m ((c.tc : Thread nD τ).loc main_arg0)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) := by
  show StableHlo.after hostOps0 (fun b => m (c, b)) (Proc.devRef .tc main_v29) = _
  after_results_simp
  rfl

end Cert.KernelIdeal.Tiles

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Spec.lean ====
/-
  The bias energy, as mathematics.

  Given the two latent variables s = (s₀, s₁), a Gaussian with height h, centre c = (c₀, c₁) and width
  w = (w₀, w₁) contributes h · exp(-½ · Σⱼ ((sⱼ - cⱼ) / wⱼ)²) to the bias energy; the energy is the sum of the
  contributions of all 8,388,608 Gaussians. Here the contribution is written over the extended reals with the
  ideal operations both programs use (the quotient `Ideal.div`, the exponential `Ideal.exp`, the factor -½ as
  the float word both programs spell), so that each program's result can be read as this sum.
-/
import Idealize.ShloMosaic.PureOps.Ideal
import Idealize.ShloMosaic.Lib.ValueIdx

noncomputable section

namespace Cert.GaussianBias

open Idealize.ShloMosaic Idealize.ShloMosaic.ValueIdx

/-- The factor -½, as the float word both programs spell. -/
abbrev negHalf : EReal := Ideal.ofBits .f32 0xBF000000#32

/-- One Gaussian's contribution at the latent variables `s`: `h · exp(-½ · Σⱼ ((sⱼ - cⱼ) / wⱼ)²)`. -/
def bell (s : Fin 2 → EReal) (h : EReal) (c w : Fin 2 → EReal) : EReal :=
  h * Ideal.exp (negHalf * ∑ j : Fin 2, Ideal.div (s j - c j) (w j) * Ideal.div (s j - c j) (w j))

/-- The number of Gaussians, as 2048 tiles of 4096. -/
abbrev nGauss : ℕ := 2048 * 4096

/-- The bias energy at the latent row `s` [1, 2] of the Gaussians with heights `hts` [G], centres `cen` [G, 2] and
    widths `wid` [G, 2]: the sum of the contributions. -/
def biasEnergy (s : (⟨2, ![1, 2]⟩ : Shape).Idx → EReal) (hts : (⟨1, ![8388608]⟩ : Shape).Idx → EReal)
    (cen wid : (⟨2, ![8388608, 2]⟩ : Shape).Idx → EReal) : EReal :=
  ∑ g : Fin 8388608, bell (fun j => s (ix2 (0 : Fin 1) j)) (hts (ix1 g)) (fun j => cen (ix2 g j)) (fun j => wid (ix2 g j))

end Cert.GaussianBias

end
-- ==== Proof.Payload.lean ====
/-
  One grid point's update of the accumulator, read at the ideal values.

  The accumulator is a [1, 1] block. Read at its one entry, the update adds to what the accumulator held the
  sum, over the tile's 4096 rows r, of the Gaussian contribution of row r: the latent row s is broadcast down the
  tile's rows, the quotient (s - centre) / width is squared and summed along the two lanes, scaled by -½,
  exponentiated, multiplied by the row's height, and the column of 4096 products is summed. The zero block reads 0.
-/
import proofs.«175812_j49194555408957_1_alg».proof.Proof.Gen.KernelIdeal.Skeleton
import proofs.«175812_j49194555408957_1_alg».proof.Proof.LibKeepdims
import proofs.«175812_j49194555408957_1_alg».proof.Proof.LibSums
import proofs.«175812_j49194555408957_1_alg».proof.Proof.Spec

noncomputable section

open Idealize.ShloMosaic Idealize.ShloMosaic.ValueIdx

namespace Cert.KernelIdeal.TileValue

open Cert.KernelIdeal Cert.KernelIdeal.Gen Cert.GaussianBias

/-- The zero block reads 0 at its entry. -/
theorem zero_apply (i : S1x1.Idx) : k0_pay1 (F := Ideal) i = 0 := by
  unfold k0_pay1
  refine (congrFun (shapeCast_self _ _) i).trans ?_
  exact Ideal.ofBits_zero_f32

/-- The squared quotient of row r, lane j: the latent row broadcast down the rows reads s[0, j] there. -/
theorem quotient_sq (s : (⟨2, ![1, 2]⟩ : Shape).Idx → EReal) (cen wid : FVec Ideal S4096x2 .f32)
    (h₁ : (⟨2, ![1, 2]⟩ : Shape).ShapeCasts ⟨2, ![1, 2]⟩) (h₂ : (⟨2, ![1, 2]⟩ : Shape).Broadcasts ⟨2, ![4096, 2]⟩)
    (r : Fin 4096) (j : Fin 2) :
    mulf (divf (subf (broadcastTo ⟨2, ![4096, 2]⟩ (shapeCast ⟨2, ![1, 2]⟩ s h₁) h₂) cen) wid)
        (divf (subf (broadcastTo ⟨2, ![4096, 2]⟩ (shapeCast ⟨2, ![1, 2]⟩ s h₁) h₂) cen) wid) (ix2 r j)
      = Ideal.div (s (ix2 (0 : Fin 1) j) - cen (ix2 r j)) (wid (ix2 r j))
        * Ideal.div (s (ix2 (0 : Fin 1) j) - cen (ix2 r j)) (wid (ix2 r j)) := by
  show Ideal.div (broadcastTo ⟨2, ![4096, 2]⟩ (shapeCast ⟨2, ![1, 2]⟩ s h₁) h₂ (ix2 r j) - cen (ix2 r j)) (wid (ix2 r j))
      * Ideal.div (broadcastTo ⟨2, ![4096, 2]⟩ (shapeCast ⟨2, ![1, 2]⟩ s h₁) h₂ (ix2 r j) - cen (ix2 r j)) (wid (ix2 r j)) = _
  rw [Cert.LibKeepdims.row_broadcast_apply s h₁ h₂ r j]

/-- The update at the accumulator's entry: what it held plus the tile's 4096 contributions. -/
theorem update_apply (s : Vec Ideal S1x2 .f32) (hts : Vec Ideal S4096x1 .f32) (cen wid : Vec Ideal S4096x2 .f32)
    (acc : Vec Ideal S1x1 .f32) :
    k0_pay2 (F := Ideal) s cen wid hts acc (ix2 (0 : Fin 1) (0 : Fin 1))
      = acc (ix2 (0 : Fin 1) (0 : Fin 1))
        + ∑ r : Fin 4096, bell (fun j => s (ix2 (0 : Fin 1) j)) (hts (ix2 r (0 : Fin 1)))
            (fun j => cen (ix2 r j)) (fun j => wid (ix2 r j)) := by
  unfold k0_pay2
  refine (congrFun (shapeCast_self _ _) _).trans ?_
  refine (addf_apply _ _ _).trans (congrArg (acc (ix2 (0 : Fin 1) (0 : Fin 1)) + ·) ?_)
  refine (Cert.LibSums.column_cast_apply _ _ (0 : Fin 1)).trans ?_
  refine (Cert.LibSums.column_sum_apply _ _ _ _).trans (Finset.sum_congr rfl fun r _ => ?_)
  unfold bell
  refine (mulf_apply _ _ _).trans (congr (congrArg HMul.hMul (congrFun (shapeCast_self _ _) _)) ?_)
  refine congrArg Ideal.exp ?_
  refine (mulf_apply _ _ _).trans (congrArg (negHalf * ·) ?_)
  refine (Cert.LibSums.column_cast_apply _ _ r).trans ?_
  refine (Cert.LibKeepdims.lane_sum_apply _ _ _ _ r).trans (Finset.sum_congr rfl fun j _ => ?_)
  exact quotient_sq s cen wid _ _ r j

end Cert.KernelIdeal.TileValue

end
-- ==== Proof.Total.lean ====
/-
  The kernel's result is the bias energy.

  At the ideal values each point's update adds the point's 4096 contributions to the accumulator's entry, and the
  first point starts from 0. So after point n the entry holds the sum of the contributions of the tiles 0 … n, and
  after the last point the sum over all 2048 tiles of 4096 Gaussians, which is the sum over all the Gaussians:
  only the grouping of the sum differs, and addition of extended reals is commutative and associative.
-/
import proofs.«175812_j49194555408957_1_alg».proof.Proof.Blocks
import proofs.«175812_j49194555408957_1_alg».proof.Proof.Payload

noncomputable section

open Idealize.ShloMosaic Idealize.ShloMosaic.TcCoe Idealize.SL.Sem Idealize.ShloMosaic.ValueIdx

namespace Cert.KernelIdeal.Tiles

open Cert.KernelIdeal Cert.KernelIdeal.Gen Cert.GaussianBias

variable (m : (ℓ : Loc nD τ sig) → Buf (Elt Ideal) ℓ)

/-- The contribution of Gaussian g, from the staged latent row and the argument arrays. -/
abbrev contribution (c : Dev nD) (g : Fin 8388608) : EReal :=
  bell (fun j => V m c main_v29 (ix2 (0 : Fin 1) j)) (m ((c.tc : Thread nD τ).loc main_arg1) (ix1 g))
    (fun j => m ((c.tc : Thread nD τ).loc main_arg2) (ix2 g j)) (fun j => m ((c.tc : Thread nD τ).loc main_arg3) (ix2 g j))

/-- The sum of the contributions of grid point t's tile. -/
def tileSum (c : Dev nD) (t : Fin cfg0.N) : EReal := ∑ r : Fin 4096, contribution m c (gaussian t r)

/-- The same over a natural number (0 past the grid). -/
def tileSumN (c : Dev nD) (t : ℕ) : EReal := if h : t < cfg0.N then tileSum m c ⟨t, h⟩ else 0

/-- One point's update adds its tile's sum to the accumulator's entry. -/
theorem update_at (c : Dev nD) (t : Fin cfg0.N) (acc : Vec Ideal S1x1 .f32) :
    tileUpdate (sBlk m c t) (hBlk m c t) (cBlk m c t) (wBlk m c t) acc (ix2 (0 : Fin 1) (0 : Fin 1))
      = acc (ix2 (0 : Fin 1) (0 : Fin 1)) + tileSum m c t := by
  refine (Cert.KernelIdeal.TileValue.update_apply _ _ _ _ _).trans
    (congrArg (acc (ix2 (0 : Fin 1) (0 : Fin 1)) + ·) (Finset.sum_congr rfl fun r _ => ?_))
  rw [hBlk_apply,
    show (fun j => sBlk m c t (ix2 (0 : Fin 1) j)) = fun j => V m c main_v29 (ix2 (0 : Fin 1) j) from
      funext fun j => sBlk_apply m c t j,
    show (fun j => cBlk m c t (ix2 r j)) = fun j => m ((c.tc : Thread nD τ).loc main_arg2) (ix2 (gaussian t r) j) from
      funext fun j => cBlk_apply m c t r j,
    show (fun j => wBlk m c t (ix2 r j)) = fun j => m ((c.tc : Thread nD τ).loc main_arg3) (ix2 (gaussian t r) j) from
      funext fun j => wBlk_apply m c t r j]

/-- After point n the accumulator's entry holds the sum of the tiles 0 … n. -/
theorem acc_apply (c : Dev nD) : ∀ (n : ℕ) (h : n < cfg0.N),
    accAfter m c n h (ix2 (0 : Fin 1) (0 : Fin 1)) = ∑ t ∈ Finset.range (n + 1), tileSumN m c t
  | 0, h => by
    show tileUpdate (sBlk m c ⟨0, h⟩) (hBlk m c ⟨0, h⟩) (cBlk m c ⟨0, h⟩) (wBlk m c ⟨0, h⟩) (zeroBlock (F := Ideal)) _ = _
    rw [update_at, show zeroBlock (F := Ideal) (ix2 (0 : Fin 1) (0 : Fin 1)) = 0 from Cert.KernelIdeal.TileValue.zero_apply _,
      zero_add, Finset.sum_range_one, tileSumN, dif_pos h]
  | n + 1, h => by
    show tileUpdate (sBlk m c ⟨n + 1, h⟩) (hBlk m c ⟨n + 1, h⟩) (cBlk m c ⟨n + 1, h⟩) (wBlk m c ⟨n + 1, h⟩)
      (accAfter m c n (Nat.lt_of_succ_lt h)) _ = _
    rw [update_at, acc_apply c n, Finset.sum_range_succ _ (n + 1), tileSumN, dif_pos h]

/-- The kernel's result entry is the bias energy at the staged latent row. -/
theorem result_apply (c : Dev nD) :
    result m c (ix2 (0 : Fin 1) (0 : Fin 1))
      = biasEnergy (V m c main_v29) (m ((c.tc : Thread nD τ).loc main_arg1)) (m ((c.tc : Thread nD τ).loc main_arg2))
          (m ((c.tc : Thread nD τ).loc main_arg3)) := by
  have hN : cfg0.N = 2048 := N_0
  show accAfter m c 2047 _ _ = _
  rw [acc_apply m c 2047, Finset.sum_range]
  unfold biasEnergy
  refine Eq.trans ?_ (Cert.LibSums.sum_tiles (m := 2048) (n := 4096) (contribution m c)).symm
  refine Finset.sum_congr rfl fun t _ => ?_
  have ht : t.val < cfg0.N := by have := t.isLt; omega
  rw [tileSumN, dif_pos ht]
  rfl

end Cert.KernelIdeal.Tiles

end
-- ==== Proof.RefValue.lean ====
/-
  The reference's result, read at the ideal values: it is the bias energy.

  The reference broadcasts the latent row over all the Gaussians, forms the quotients (s - centre) / width,
  squares them and sums along the two lanes from 0, scales by -½, exponentiates, multiplies by the heights and
  sums the whole vector from 0. Read at the result's one index that is 0 + Σ_g height g · exp(-½ · (0 + Σⱼ z[g, j]²)):
  the sum of the Gaussians' contributions, the two zeros being neutral.
-/
import proofs.«175812_j49194555408957_1_alg».proof.Proof.RefRun
import proofs.«175812_j49194555408957_1_alg».proof.Proof.LibSums
import proofs.«175812_j49194555408957_1_alg».proof.Proof.Spec

noncomputable section

open Idealize.ShloMosaic Idealize.ShloMosaic.ValueIdx

namespace Cert.ReferenceIdeal.HostRun

open Cert.ReferenceIdeal Cert.ReferenceIdeal.Gen Cert.GaussianBias

/-- The quotient of Gaussian g, lane j: the latent row broadcast over the Gaussians reads s[0, j] there. -/
theorem quotients_apply (s : FVec Ideal S1x2 .f32) (cen wid : FVec Ideal S8388608x2 .f32) (g : Fin 8388608) (j : Fin 2) :
    quotients (F := Ideal) s cen wid (ix2 g j) = Ideal.div (s (ix2 (0 : Fin 1) j) - cen (ix2 g j)) (wid (ix2 g j)) := by
  show Ideal.div (broadcastInDim S8388608x2 ![0, 1] bcast_S1x2_S8388608x2_0_1 s (ix2 g j) - cen (ix2 g j)) (wid (ix2 g j)) = _
  rw [broadcastInDim_apply ![0, 1] bcast_S1x2_S8388608x2_0_1 s (ix2 g j) (ix2 (0 : Fin 1) j)
    (fun a => by match a with | ⟨0, _⟩ => rfl | ⟨1, _⟩ => rfl)]

/-- The host's exponential, read at an index at the ideal values. -/
theorem host_exp_apply {s : Shape} (x : FVec Ideal s .f32) (i : s.Idx) : Host.exp x i = Ideal.exp (x i) :=
  Ideal.hostUnary_exp_def (x i)

/-- The reference's result is the bias energy of the latent row, at its one index. -/
theorem energy_apply (s : FVec Ideal S1x2 .f32) (hts : FVec Ideal S8388608 .f32) (cen wid : FVec Ideal S8388608x2 .f32)
    (i : S_.Idx) :
    energy (F := Ideal) s hts cen wid i = biasEnergy s hts cen wid := by
  unfold energy biasEnergy
  refine (Cert.LibSums.host_vector_sum_apply _ _ reducesTo_S8388608_S_d0 i).trans ?_
  refine (congrArg (· + _) Ideal.ofBits_zero_f32).trans ((zero_add _).trans ?_)
  refine Finset.sum_congr rfl fun g _ => ?_
  unfold bell
  refine (mulf_apply _ _ _).trans (congrArg (hts (ix1 g) * ·) ?_)
  refine (host_exp_apply _ _).trans (congrArg Ideal.exp ?_)
  refine (mulf_apply _ _ _).trans (congrArg (negHalf * ·) ?_)
  refine (Cert.LibSums.host_lane_sum_apply _ _ reducesTo_S8388608x2_S8388608_d1 (by decide) g).trans ?_
  refine (congrArg (· + _) Ideal.ofBits_zero_f32).trans ((zero_add _).trans ?_)
  refine Finset.sum_congr rfl fun j _ => ?_
  refine (mulf_apply _ _ _).trans ?_
  rw [quotients_apply]

end Cert.ReferenceIdeal.HostRun

end
-- ==== Proof.lean ====
/-
  The certificate: a Gaussian-sum bias energy, tiled over a grid with a carried accumulator, against the plain sum.

  Both programs first compute two latent variables s from the atom positions by the same thirty-seven host
  operations (pair distances, then a small tanh network). The reference then evaluates the bias energy
  Σ_g height g · exp(-½ · |(s - centre g) / width g|²) over all 8,388,608 Gaussians in one sweep. The kernel walks the
  Gaussians in 2048 tiles of 4096: each grid point adds its tile's partial sum to a one-entry accumulator, zeroed at
  the first point and copied out at the last. Over the extended reals the two results are the same sum, grouped
  differently; addition there is commutative and associative, so no finiteness of the inputs is needed and the
  precondition is never opened.

  The kernel's frames are the generated ones; the reference's run is read back operation by operation; the
  kernel's value is read off the generated frame run (the accumulator's chain, by induction on the grid point).
  The ideal pass rewrote nothing, so `preserves` is trivial.
-/
import proofs.«175812_j49194555408957_1_alg».proof.Defs
import proofs.«175812_j49194555408957_1_alg».proof.Proof.Gen.Kernel
import proofs.«175812_j49194555408957_1_alg».proof.Proof.Gen.Kernel.Frame
import proofs.«175812_j49194555408957_1_alg».proof.Proof.Gen.KernelIdeal
import proofs.«175812_j49194555408957_1_alg».proof.Proof.Gen.KernelIdeal.Frame
import proofs.«175812_j49194555408957_1_alg».proof.Proof.Gen.ReferenceIdeal
import proofs.«175812_j49194555408957_1_alg».proof.Proof.Gen.Pre_finite_inputs
import proofs.«175812_j49194555408957_1_alg».proof.Proof.Total
import proofs.«175812_j49194555408957_1_alg».proof.Proof.RefValue

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Both programs end at the bias energy of the same latent row of the same arguments: the kernel's accumulator
    after the last grid point, reshaped to a scalar, and the reference's one sweep. -/
theorem algebraic : Cert.algebraic_KernelIdeal_ReferenceIdeal := by
  intro m ρ m' ρ' _ hagree
  refine ⟨fun c => shapeCast Cert.KernelIdeal.S_ (Cert.KernelIdeal.Tiles.result m c) Cert.KernelIdeal.Facts₀.shapeCasts_S1x1_S_,
    Cert.KernelIdeal.Tiles.run (F := Ideal) m ρ, ?_⟩
  refine (θ_run Cert.ReferenceIdeal.defs _ _).mono (fun _ h c => ⟨(h c).1.trans ?_, (h c).2⟩)
    (Cert.ReferenceIdeal.HostRun.run (F := Ideal) m' ρ')
  obtain ⟨a0, a1, a2, a3, a4, a5, a6, a7, a8, a9⟩ := hagree c
  rw [a0, a1, a2, a3, a4, a5, a6, a7, a8, a9]
  funext i
  rw [Cert.ReferenceIdeal.HostRun.energy_apply]
  refine Eq.trans ?_ (shapeCast_apply _ _ i (ix2 (0 : Fin 1) (0 : Fin 1)) ?_).symm
  · rw [Cert.KernelIdeal.Tiles.result_apply, Cert.KernelIdeal.Tiles.latent_row]
  · rw [Shape.rowMajor_val_two]
    have h : (Cert.ReferenceIdeal.S_.rowMajor i).val < 1 := (Cert.ReferenceIdeal.S_.rowMajor i).isLt
    show 0 * 1 + 0 = (Cert.ReferenceIdeal.S_.rowMajor i).val
    omega

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
